-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v17_0)) (v1 : (c : Dev Cert.KernelIdeal.nD) → Buf (Elt Ideal) ((c.tc : Thread Cert.KernelIdeal.nD Cert.KernelIdeal.τ).loc Cert.KernelIdeal.main_v17_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17_0) = v0 c
          ∧ r.2.mem ((c.tc : Thread Cert.KernelIdeal.nD Cert.KernelIdeal.τ).loc Cert.KernelIdeal.main_v17_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S128x128 .f32) (main_arg9 : FVec F S128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg5 : FVec F S128x128 .f32) (main_arg6 : FVec F S128x128 .f32) (main_arg7 : FVec F S128 .f32) (main_arg8 : FVec F S128x128 .f32) (main_arg9 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_v33

def fn {F : FTy → Type} [FloatOps F] (main_arg0 : FVec F S50000x128 .f32) (main_arg1 : IVec S2x800000 32) (main_arg2 : FVec F S800000 .f32) (main_arg3 : FVec F S128x128 .f32) (main_arg4 : FVec F S128 .f32) (main_arg5 : FVec F S128x128 .f32) (main_arg6 : FVec F S128x128 .f32) (main_arg7 : FVec F S128 .f32) (main_arg8 : FVec F S128x128 .f32) (main_arg9 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_v13 main_v16
-- ==== Kernel.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S1x800000 : Shape := ⟨2, ![1, 800000]⟩
abbrev S_ : Shape := ⟨0, ![]⟩
abbrev S800000x1 : Shape := ⟨2, ![800000, 1]⟩
abbrev S800000x128 : Shape := ⟨2, ![800000, 128]⟩
abbrev S5000x128 : Shape := ⟨2, ![5000, 128]⟩
abbrev S1x128 : Shape := ⟨2, ![1, 128]⟩

abbrev nBuf : Space → Nat
  | .hbm => 32
  | .vmem => 15
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x128, .f32⟩
  | .hbm, ⟨23, _⟩ => ⟨S800000x1, .f32⟩
  | .hbm, ⟨24, _⟩ => ⟨S800000x128, .f32⟩
  | .hbm, ⟨25, _⟩ => ⟨S800000x128, .f32⟩
  | .hbm, ⟨26, _⟩ => ⟨S_, .f32⟩
  | .hbm, ⟨27, _⟩ => ⟨S50000x128, .f32⟩
  | .hbm, ⟨28, _⟩ => ⟨S800000x1, .i32⟩
  | .hbm, ⟨29, _⟩ => ⟨S50000x128, .f32⟩
  | .hbm, ⟨30, _⟩ => ⟨S50000x128, .f32⟩
  | .hbm, ⟨31, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128, .f32⟩
  | .local _ .vmem, ⟨6, _⟩ => ⟨S128x128, .f32⟩
  | .local _ .vmem, ⟨7, _⟩ => ⟨S128x128, .f32⟩
  | .local _ .vmem, ⟨8, _⟩ => ⟨S128, .f32⟩
  | .local _ .vmem, ⟨9, _⟩ => ⟨S128x128, .f32⟩
  | .local _ .vmem, ⟨10, _⟩ => ⟨S128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17_0 : Ref sig .tc := ⟨.hbm, 30, rfl⟩
abbrev main_v17_1 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S5000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S5000x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S5000x128.size a ≤ S50000x128.size a
  hwx0_9 : ∀ i : grid0.Coords, EltTy.bits .f32 = 32 ∨ (Rect.block (s := S50000x128) S5000x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S5000x128.size a ≤ S50000x128.size a
  hwx0_10 : ∀ i : grid0.Coords, EltTy.bits .f32 = 32 ∨ (Rect.block (s := S50000x128) S5000x128.size (cc0_transform_10 i) (hinb0_10 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v16) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg9) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v17_0) S5000x128.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v17_1) S5000x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S1x800000 : Shape := ⟨2, ![1, 800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩

abbrev nBuf : Space → Nat
  | .hbm => 53
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x128, .f32⟩
  | .hbm, ⟨23, _⟩ => ⟨S800000x1, .f32⟩
  | .hbm, ⟨24, _⟩ => ⟨S800000x128, .f32⟩
  | .hbm, ⟨25, _⟩ => ⟨S800000x128, .f32⟩
  | .hbm, ⟨26, _⟩ => ⟨S_, .f32⟩
  | .hbm, ⟨27, _⟩ => ⟨S50000x128, .f32⟩
  | .hbm, ⟨28, _⟩ => ⟨S800000x1, .i32⟩
  | .hbm, ⟨29, _⟩ => ⟨S50000x128, .f32⟩
  | .hbm, ⟨30, _⟩ => ⟨S50000x128, .f32⟩
  | .hbm, ⟨31, _⟩ => ⟨S1x128, .f32⟩
  | .hbm, ⟨32, _⟩ => ⟨S50000x128, .f32⟩
  | .hbm, ⟨33, _⟩ => ⟨S50000x128, .f32⟩
  | .hbm, ⟨34, _⟩ => ⟨S50000x128, .f32⟩
  | .hbm, ⟨35, _⟩ => ⟨S50000x128, .f32⟩
  | .hbm, ⟨36, _⟩ => ⟨S_, .f32⟩
  | .hbm, ⟨37, _⟩ => ⟨S50000x128, .f32⟩
  | .hbm, ⟨38, _⟩ => ⟨S50000x128, .f32⟩
  | .hbm, ⟨39, _⟩ => ⟨S50000x128, .f32⟩
  | .hbm, ⟨40, _⟩ => ⟨S1x128, .f32⟩
  | .hbm, ⟨41, _⟩ => ⟨S50000x128, .f32⟩
  | .hbm, ⟨42, _⟩ => ⟨S50000x128, .f32⟩
  | .hbm, ⟨43, _⟩ => ⟨S_, .f32⟩
  | .hbm, ⟨44, _⟩ => ⟨S50000x128, .f32⟩
  | .hbm, ⟨45, _⟩ => ⟨S50000x128, .f32⟩
  | .hbm, ⟨46, _⟩ => ⟨S50000x128, .f32⟩
  | .hbm, ⟨47, _⟩ => ⟨S1x128, .f32⟩
  | .hbm, ⟨48, _⟩ => ⟨S50000x128, .f32⟩
  | .hbm, ⟨49, _⟩ => ⟨S50000x128, .f32⟩
  | .hbm, ⟨50, _⟩ => ⟨S_, .f32⟩
  | .hbm, ⟨51, _⟩ => ⟨S50000x128, .f32⟩
  | .hbm, ⟨52, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_call0_cst : Ref sig .tc := ⟨.hbm, 36, rfl⟩
abbrev main_call0_v0 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_call1_cst : Ref sig .tc := ⟨.hbm, 43, rfl⟩
abbrev main_call1_v0 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_call2_cst : Ref sig .tc := ⟨.hbm, 50, rfl⟩
abbrev main_call2_v0 : Ref sig .tc := ⟨.hbm, 51, rfl⟩
abbrev main_v33 : Ref sig .tc := ⟨.hbm, 52, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.HeadSpec.lean ====
/-
  The node-wise head of a variational graph encoder, as a function of whole arrays over the extended reals.

  For a node `r` with aggregated neighbour features `agg r ·` and own features `x r ·` (both 128 wide):

    hidden r k = max (Σ_j agg r j · W_rel j k  +  b_rel k  +  Σ_j x r j · W_root j k) 0
    out    r c = max (Σ_k hidden r k · W k c  +  b c) 0

  with `(W, b)` the mean head's or the log-deviation head's weights. Every output row depends on the same row
  of `agg` and `x` only: that is what lets a block of rows be computed from the matching block of rows
  (`headAt_congr`).
-/
import Idealize.ShloMosaic.PureOps.Ideal
import Idealize.ShloMosaic.PureOps.Ideal.Laws
import Idealize.ShloMosaic.Lib.ValueIdx

noncomputable section

namespace Cert.HeadSpec

open Idealize.ShloMosaic Idealize.ShloMosaic.ValueIdx

/-- An `n × 128` matrix of extended reals. -/
abbrev Mat (n : Nat) : Type := (⟨2, ![n, 128]⟩ : Shape).Idx → EReal
/-- A vector of 128 extended reals. -/
abbrev Row : Type := (⟨1, ![128]⟩ : Shape).Idx → EReal

/-- The zero the rectifier compares with: the f32 word `0x00000000` read as an extended real. -/
abbrev zero32 : EReal := Ideal.ofBits .f32 0x00000000#32

/-- Row `r` of `a` against column `c` of `w`. -/
def dense {n : Nat} (a : Mat n) (w : Mat 128) (r : Fin n) (c : Fin 128) : EReal :=
  ∑ k : Fin 128, a (ix2 r k) * w (ix2 k c)

/-- The hidden layer: the neighbours' projection plus its bias plus the node's own projection, rectified. -/
def hidden {n : Nat} (agg x : Mat n) (wrel : Mat 128) (brel : Row) (wroot : Mat 128) (r : Fin n) (k : Fin 128) : EReal :=
  max (dense agg wrel r k + brel (ix1 k) + dense x wroot r k) zero32

/-- One output head at node `r`, column `c`. -/
def headAt {n : Nat} (agg x : Mat n) (wrel : Mat 128) (brel : Row) (wroot w : Mat 128) (b : Row)
    (r : Fin n) (c : Fin 128) : EReal :=
  max ((∑ k : Fin 128, hidden agg x wrel brel wroot r k * w (ix2 k c)) + b (ix1 c)) zero32

/-- One output head as a whole `n × 128` array. -/
def head {n : Nat} (agg x : Mat n) (wrel : Mat 128) (brel : Row) (wroot w : Mat 128) (b : Row) : Mat n :=
  fun j => headAt agg x wrel brel wroot w b (j 0) (j 1)

theorem head_ix2 {n : Nat} (agg x : Mat n) (wrel : Mat 128) (brel : Row) (wroot w : Mat 128) (b : Row)
    (r : Fin n) (c : Fin 128) :
    head agg x wrel brel wroot w b (ix2 r c) = headAt agg x wrel brel wroot w b r c := rfl

/-- A row of the hidden layer is a function of the same row of `agg` and of `x`. -/
theorem hidden_congr {n n' : Nat} (agg x : Mat n) (agg' x' : Mat n') (wrel : Mat 128) (brel : Row) (wroot : Mat 128)
    (r : Fin n) (r' : Fin n') (hagg : ∀ k, agg (ix2 r k) = agg' (ix2 r' k)) (hx : ∀ k, x (ix2 r k) = x' (ix2 r' k))
    (k : Fin 128) : hidden agg x wrel brel wroot r k = hidden agg' x' wrel brel wroot r' k := by
  unfold hidden dense
  simp only [hagg, hx]

/-- And so is a row of an output head. -/
theorem headAt_congr {n n' : Nat} (agg x : Mat n) (agg' x' : Mat n') (wrel : Mat 128) (brel : Row) (wroot w : Mat 128)
    (b : Row) (r : Fin n) (r' : Fin n') (hagg : ∀ k, agg (ix2 r k) = agg' (ix2 r' k))
    (hx : ∀ k, x (ix2 r k) = x' (ix2 r' k)) (c : Fin 128) :
    headAt agg x wrel brel wroot w b r c = headAt agg' x' wrel brel wroot w b r' c := by
  unfold headAt
  simp only [hidden_congr agg x agg' x' wrel brel wroot r r' hagg hx]

end Cert.HeadSpec

end
-- ==== Proof.HeadReference.lean ====
/-
  The reference's two results are the specification's two heads.

  Read one operation at a time, each result of the reference at row `r`, column `c` is
  `max (Σ_k h r k · W k c + b c) 0` with `h r k = max (Σ_j agg r j · W_rel j k + b_rel k + Σ_j x r j · W_root j k) 0`,
  where `agg` is the scatter-added message array: the specification's `head`, with the very same
  grouping of the sums (so nothing beyond unfolding is needed here).
-/
import proofs.«179351_j67774583931485_1_alg».proof.Proof.Gen.ReferenceIdeal.Read
import proofs.«179351_j67774583931485_1_alg».proof.Proof.HeadSpec

noncomputable section

namespace Cert.ReferenceIdeal.HeadValue

open Cert.ReferenceIdeal Cert.ReferenceIdeal.Read Idealize.ShloMosaic Idealize.ShloMosaic.ValueIdx Cert.HeadSpec

/-! ## The operand indices of the four products, and of the three bias broadcasts, in coordinates -/

theorem lidx17 (r : Fin 50000) (c k : Fin 128) : lidx_main_v17 (ix2 r c) k = ix2 r k :=
  funext fun a => Fin.ext (by match a with | ⟨0, _⟩ => rfl | ⟨1, _⟩ => rfl)
theorem ridx17 (r : Fin 50000) (c k : Fin 128) : ridx_main_v17 (ix2 r c) k = ix2 k c :=
  funext fun a => Fin.ext (by match a with | ⟨0, _⟩ => rfl | ⟨1, _⟩ => rfl)
theorem lidx21 (r : Fin 50000) (c k : Fin 128) : lidx_main_v21 (ix2 r c) k = ix2 r k :=
  funext fun a => Fin.ext (by match a with | ⟨0, _⟩ => rfl | ⟨1, _⟩ => rfl)
theorem ridx21 (r : Fin 50000) (c k : Fin 128) : ridx_main_v21 (ix2 r c) k = ix2 k c :=
  funext fun a => Fin.ext (by match a with | ⟨0, _⟩ => rfl | ⟨1, _⟩ => rfl)
theorem lidx24 (r : Fin 50000) (c k : Fin 128) : lidx_main_v24 (ix2 r c) k = ix2 r k :=
  funext fun a => Fin.ext (by match a with | ⟨0, _⟩ => rfl | ⟨1, _⟩ => rfl)
theorem ridx24 (r : Fin 50000) (c k : Fin 128) : ridx_main_v24 (ix2 r c) k = ix2 k c :=
  funext fun a => Fin.ext (by match a with | ⟨0, _⟩ => rfl | ⟨1, _⟩ => rfl)
theorem lidx29 (r : Fin 50000) (c k : Fin 128) : lidx_main_v29 (ix2 r c) k = ix2 r k :=
  funext fun a => Fin.ext (by match a with | ⟨0, _⟩ => rfl | ⟨1, _⟩ => rfl)
theorem ridx29 (r : Fin 50000) (c k : Fin 128) : ridx_main_v29 (ix2 r c) k = ix2 k c :=
  funext fun a => Fin.ext (by match a with | ⟨0, _⟩ => rfl | ⟨1, _⟩ => rfl)
theorem bidx19 (r : Fin 50000) (c : Fin 128) : idx_main_v18 (idx_main_v19 (ix2 r c)) = ix1 c :=
  funext fun a => Fin.ext (by match a with | ⟨0, _⟩ => rfl)
theorem bidx26 (r : Fin 50000) (c : Fin 128) : idx_main_v25 (idx_main_v26 (ix2 r c)) = ix1 c :=
  funext fun a => Fin.ext (by match a with | ⟨0, _⟩ => rfl)
theorem bidx31 (r : Fin 50000) (c : Fin 128) : idx_main_v30 (idx_main_v31 (ix2 r c)) = ix1 c :=
  funext fun a => Fin.ext (by match a with | ⟨0, _⟩ => rfl)

/-! ## The hidden layer -/

/-- The rectified sum of the two projections and the bias, at a node and a hidden unit. -/
theorem hidden_ref (x0 : (⟨S50000x128, .f32⟩ : BufTy).Contents (Elt Ideal)) (x1 : (⟨S2x800000, .i32⟩ : BufTy).Contents (Elt Ideal))
    (x2 : (⟨S800000, .f32⟩ : BufTy).Contents (Elt Ideal)) (x3 : (⟨S128x128, .f32⟩ : BufTy).Contents (Elt Ideal))
    (x4 : (⟨S128, .f32⟩ : BufTy).Contents (Elt Ideal)) (x5 : (⟨S128x128, .f32⟩ : BufTy).Contents (Elt Ideal))
    (r : Fin 50000) (k : Fin 128) :
    val_main_v23 (F := Ideal) x0 x1 x2 x3 x4 x5 (ix2 r k)
      = hidden (val_main_v16 (F := Ideal) x0 x1 x2) x0 x3 x4 x5 r k := by
  rw [val_main_v23_apply, val_main_v22_apply, val_main_v20_apply, val_main_v17_apply, val_main_v19_apply,
    val_main_v18_apply, val_main_v21_apply, val_main_call0_v0_apply, val_main_call0_cst_apply]
  simp only [lidx17, ridx17, lidx21, ridx21, bidx19]
  rfl

/-! ## The two heads -/

/-- The mean head. -/
theorem mu_ref (x0 : (⟨S50000x128, .f32⟩ : BufTy).Contents (Elt Ideal)) (x1 : (⟨S2x800000, .i32⟩ : BufTy).Contents (Elt Ideal))
    (x2 : (⟨S800000, .f32⟩ : BufTy).Contents (Elt Ideal)) (x3 : (⟨S128x128, .f32⟩ : BufTy).Contents (Elt Ideal))
    (x4 : (⟨S128, .f32⟩ : BufTy).Contents (Elt Ideal)) (x5 x6 : (⟨S128x128, .f32⟩ : BufTy).Contents (Elt Ideal))
    (x7 : (⟨S128, .f32⟩ : BufTy).Contents (Elt Ideal)) :
    val_main_v28 (F := Ideal) x0 x1 x2 x3 x4 x5 x6 x7
      = head (val_main_v16 (F := Ideal) x0 x1 x2) x0 x3 x4 x5 x6 x7 := by
  funext j
  obtain ⟨r, c, rfl⟩ : ∃ (r : Fin 50000) (c : Fin 128), j = ix2 r c := ⟨j 0, j 1, eq_ix2 j⟩
  rw [val_main_v28_apply, val_main_v27_apply, val_main_v24_apply, val_main_v26_apply, val_main_v25_apply,
    val_main_call1_v0_apply, val_main_call1_cst_apply]
  simp only [lidx24, ridx24, bidx26, hidden_ref]
  rfl

/-- The log-deviation head. -/
theorem logstd_ref (x0 : (⟨S50000x128, .f32⟩ : BufTy).Contents (Elt Ideal)) (x1 : (⟨S2x800000, .i32⟩ : BufTy).Contents (Elt Ideal))
    (x2 : (⟨S800000, .f32⟩ : BufTy).Contents (Elt Ideal)) (x3 : (⟨S128x128, .f32⟩ : BufTy).Contents (Elt Ideal))
    (x4 : (⟨S128, .f32⟩ : BufTy).Contents (Elt Ideal)) (x5 x8 : (⟨S128x128, .f32⟩ : BufTy).Contents (Elt Ideal))
    (x9 : (⟨S128, .f32⟩ : BufTy).Contents (Elt Ideal)) :
    val_main_v33 (F := Ideal) x0 x1 x2 x3 x4 x5 x8 x9
      = head (val_main_v16 (F := Ideal) x0 x1 x2) x0 x3 x4 x5 x8 x9 := by
  funext j
  obtain ⟨r, c, rfl⟩ : ∃ (r : Fin 50000) (c : Fin 128), j = ix2 r c := ⟨j 0, j 1, eq_ix2 j⟩
  rw [val_main_v33_apply, val_main_v32_apply, val_main_v29_apply, val_main_v31_apply, val_main_v30_apply,
    val_main_call2_v0_apply, val_main_call2_cst_apply]
  simp only [lidx29, ridx29, bidx31, hidden_ref]
  rfl

end Cert.ReferenceIdeal.HeadValue

end
-- ==== Proof.HeadBody.lean ====
/-
  The kernel body's two stored values, read at a row `r` and a column `c` of the 5000 × 128 block.

  Over the extended reals a change of float format is the identity and a product accumulated into a zero
  block is the plain sum `Σ_k l r k · w k c`; a bias of length 128 cast to 1 × 128 and broadcast down the rows
  reads `b c` everywhere. So the value kept for both heads is the specification's `hidden` of the two
  loaded row blocks, and each stored block is the specification's `headAt` of them.
-/
import proofs.«179351_j67774583931485_1_alg».proof.Proof.Gen.KernelIdeal.Skeleton
import proofs.«179351_j67774583931485_1_alg».proof.Proof.HeadSpec
import Idealize.ShloMosaic.Lib.Pipeline.Value
import Idealize.ShloMosaic.Lib.ValueIdx
import Idealize.ShloMosaic.PureOps.Ideal.Laws

noncomputable section

namespace Cert.KernelIdeal.HeadBody

open Cert.KernelIdeal Cert.KernelIdeal.Gen Idealize.ShloMosaic Idealize.ShloMosaic.ValueIdx Cert.HeadSpec

/-! ## The block product at an index -/

theorem lhs_blk_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_blk_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_blk_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_blk_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A 5000 × 128 by 128 × 128 product into the zero block, at row `r` and column `c`: the sum over the shared axis. -/
theorem matmul_blk {φ₁ φ₂ : FTy} (l : FVec Ideal S5000x128 φ₁) (w : FVec Ideal S128x128 φ₂) (r : Fin 5000) (c : Fin 128) :
    matmul dot_S5000x128_S128x128_S5000x128_1_0_0_1_n_n none l w (constant S5000x128 .f32 0x00000000#32) (ix2 r c)
      = ∑ k : Fin 128, l (ix2 r k) * w (ix2 k c) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 r c) ((contrEquiv1 dot_S5000x128_S128x128_S5000x128_1_0_0_1_n_n 128 rfl rfl).symm k) = ix2 r k := funext fun a => Fin.ext (by
    match a with
    | ⟨0, _⟩ => exact lhs_blk_0 _ _
    | ⟨1, _⟩ => exact (lhs_blk_1 _ _).trans hk)
  have er : dot_S5000x128_S128x128_S5000x128_1_0_0_1_n_n.rhsIdx (ix2 r c) ((contrEquiv1 dot_S5000x128_S128x128_S5000x128_1_0_0_1_n_n 128 rfl rfl).symm k) = ix2 k c := funext fun a => Fin.ext (by
    match a with
    | ⟨0, _⟩ => exact (rhs_blk_0 _ _).trans hk
    | ⟨1, _⟩ => exact rhs_blk_1 _ _)
  rw [el, er]

/-! ## A bias broadcast down the rows -/

/-- A length-128 vector cast to 1 × 128 and broadcast to 5000 × 128 reads its `c`-th entry in column `c`. -/
theorem bias_blk (v : FVec Ideal S128 .f32) (r : Fin 5000) (c : Fin 128) :
    broadcastTo S5000x128 (shapeCast S1x128 v shapeCasts_S128_S1x128) broadcasts_S1x128_S5000x128 (ix2 r c) = v (ix1 c) := by
  rw [broadcastTo_apply _ broadcasts_S1x128_S5000x128 (ix2 r c) (ix2 (0 : Fin 1) c) (fun a => by
    match a with
    | ⟨0, _⟩ => show 0 = if (1 : Nat) = 1 then 0 else r.val; rw [if_pos rfl]
    | ⟨1, _⟩ => show c.val = if (128 : Nat) = 1 then 0 else c.val; rw [if_neg (by decide)])]
  exact shapeCast_apply v shapeCasts_S128_S1x128 (ix2 (0 : Fin 1) c) (ix1 c)
    (by rewrite [Shape.rowMajor_val_two, Shape.rowMajor_val_one]; show c.val = 0 * 128 + c.val; omega)

/-! ## The payloads -/

/-- The value both heads multiply: the hidden layer of the loaded rows. -/
theorem pay1_apply (v0 v3 : Vec Ideal S5000x128 .f32) (v5 v7 : Vec Ideal S128x128 .f32) (v11 : Vec Ideal S128 .f32)
    (r : Fin 5000) (k : Fin 128) :
    k0_pay1 (F := Ideal) v0 v3 v5 v7 v11 (ix2 r k) = hidden v0 v3 v5 v11 v7 r k := by
  unfold k0_pay1
  simp only [truncf_apply, maximumf_apply, addf_apply, broadcast_apply]
  rw [matmul_blk, matmul_blk, bias_blk, shapeCast_self]
  rfl

/-- The block stored for the mean head. -/
theorem pay2_apply (v0 v3 : Vec Ideal S5000x128 .f32) (v5 v7 : Vec Ideal S128x128 .f32) (v11 : Vec Ideal S128 .f32)
    (v19 : Vec Ideal S128x128 .f32) (v24 : Vec Ideal S128 .f32) (r : Fin 5000) (c : Fin 128) :
    k0_pay2 (F := Ideal) v0 v3 v5 v7 v11 v19 v24 (ix2 r c) = headAt v0 v3 v5 v11 v7 v19 v24 r c := by
  unfold k0_pay2
  simp only [truncf_apply, maximumf_apply, addf_apply, broadcast_apply]
  rw [matmul_blk, bias_blk]
  simp only [truncf_apply, pay1_apply]
  rfl

/-- The block stored for the log-deviation head. -/
theorem pay3_apply (v0 v3 : Vec Ideal S5000x128 .f32) (v5 v7 : Vec Ideal S128x128 .f32) (v11 : Vec Ideal S128 .f32)
    (v21 : Vec Ideal S128x128 .f32) (v31 : Vec Ideal S128 .f32) (r : Fin 5000) (c : Fin 128) :
    k0_pay3 (F := Ideal) v0 v3 v5 v7 v11 v21 v31 (ix2 r c) = headAt v0 v3 v5 v11 v7 v21 v31 r c := by
  unfold k0_pay3
  simp only [truncf_apply, maximumf_apply, addf_apply, broadcast_apply]
  rw [matmul_blk, bias_blk]
  simp only [truncf_apply, pay1_apply]
  rfl

end Cert.KernelIdeal.HeadBody

end
-- ==== Proof.HeadBlocks.lean ====
/-
  From row blocks to whole arrays.

  The grid has ten points; point `t` stages rows `5000·t … 5000·t + 4999` of the aggregated array and of `x`,
  the six weight arrays whole, and writes back rows `5000·t …` of each result. Since a row of a head depends on
  the same row of its two row-blocked inputs only, what point `t` writes back is block `t` of the
  specification's `head` of the WHOLE arrays; the ten blocks tile the 50000 rows (row `i` lies in block
  `i / 5000`), so each result array ends holding `head` of the arrays the region found.
  The block reads hold for arbitrary contents of the arrays.
-/
import proofs.«179351_j67774583931485_1_alg».proof.Proof.Gen.KernelIdeal.Value
import proofs.«179351_j67774583931485_1_alg».proof.Proof.HeadBody

noncomputable section

namespace Cert.KernelIdeal.HeadBlocks

open Cert.KernelIdeal Cert.KernelIdeal.Gen Idealize.ShloMosaic Idealize.ShloMosaic.TcCoe Idealize.SL.Sem
open Idealize.ShloMosaic.ValueIdx Cert.HeadSpec Cert.KernelIdeal.HeadBody
open Idealize.ShloMosaic.Pipeline (Dat)

theorem zero2 : (![0, 0] : Fin 2 → Nat) = fun _ => 0 := funext fun a => by fin_cases a <;> rfl
theorem zero1 : (![0] : Fin 1 → Nat) = fun _ => 0 := funext fun a => by fin_cases a; rfl

/-- Where each window's block sits at a point. -/
structure BlockIdx (t : Fin cfg0.N) : Prop where
  w0 : win0_0.index t (0 : Fin 2) = t.val ∧ win0_0.index t (1 : Fin 2) = 0
  w1 : win0_1.index t (0 : Fin 2) = t.val ∧ win0_1.index t (1 : Fin 2) = 0
  w2 : win0_2.index t (0 : Fin 2) = 0 ∧ win0_2.index t (1 : Fin 2) = 0
  w3 : win0_3.index t (0 : Fin 1) = 0
  w4 : win0_4.index t (0 : Fin 2) = 0 ∧ win0_4.index t (1 : Fin 2) = 0
  w5 : win0_5.index t (0 : Fin 2) = 0 ∧ win0_5.index t (1 : Fin 2) = 0
  w6 : win0_6.index t (0 : Fin 1) = 0
  w7 : win0_7.index t (0 : Fin 2) = 0 ∧ win0_7.index t (1 : Fin 2) = 0
  w8 : win0_8.index t (0 : Fin 1) = 0
  w9 : win0_9.index t (0 : Fin 2) = t.val ∧ win0_9.index t (1 : Fin 2) = 0
  w10 : win0_10.index t (0 : Fin 2) = t.val ∧ win0_10.index t (1 : Fin 2) = 0

/-- The block index maps over the ten points: the two row-blocked inputs and the two results move down the rows with
    the point, every weight array sits at block 0. -/
theorem idx_table : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ win0_3.index t (0 : Fin 1) = 0
    ∧ (win0_4.index t (0 : Fin 2) = 0 ∧ win0_4.index t (1 : Fin 2) = 0)
    ∧ (win0_5.index t (0 : Fin 2) = 0 ∧ win0_5.index t (1 : Fin 2) = 0)
    ∧ win0_6.index t (0 : Fin 1) = 0
    ∧ (win0_7.index t (0 : Fin 2) = 0 ∧ win0_7.index t (1 : Fin 2) = 0)
    ∧ win0_8.index t (0 : Fin 1) = 0
    ∧ (win0_9.index t (0 : Fin 2) = t.val ∧ win0_9.index t (1 : Fin 2) = 0)
    ∧ (win0_10.index t (0 : Fin 2) = t.val ∧ win0_10.index t (1 : Fin 2) = 0) :=
  (by decide +kernel : ∀ t : Fin grid0.N, _)

theorem idx_facts (t : Fin cfg0.N) : BlockIdx t := by
  obtain ⟨h0, h1, h2, h3, h4, h5, h6, h7, h8, h9, h10⟩ := idx_table t
  exact ⟨h0, h1, h2, h3, h4, h5, h6, h7, h8, h9, h10⟩

theorem point_lt (t : Fin cfg0.N) : t.val < 10 := lt_of_lt_of_eq t.isLt (show cfg0.N = 10 from N_0)

/-! ## Each input block, read off ANY contents of its array -/

/-- Row `r` of point `t`'s block of the aggregated array is its row `5000·t + r`. -/
theorem rows_agg (A : Mat 50000) (t : Fin cfg0.N) (r : Fin 5000) (k : Fin 128) (r' : Fin 50000) (hr : r'.val = t.val * 5000 + r.val) :
    ((cfg0.win 0).blk t).view.read (Elt Ideal) A (ix2 r k) = A (ix2 r' k) := by
  obtain ⟨e0, e1⟩ := (idx_facts t).w0
  show A (((cfg0.win 0).blk t).view.emb (ix2 r k)) = A (ix2 r' k)
  refine congrArg A (funext fun a => Fin.ext ?_)
  match a with
  | ⟨0, _⟩ => show win0_0.index t (0 : Fin 2) * 5000 + 1 * r.val = r'.val; rw [e0, hr]; omega
  | ⟨1, _⟩ => show win0_0.index t (1 : Fin 2) * 128 + 1 * k.val = k.val; rw [e1]; omega
/-- The same for `x`. -/
theorem rows_x (A : Mat 50000) (t : Fin cfg0.N) (r : Fin 5000) (k : Fin 128) (r' : Fin 50000) (hr : r'.val = t.val * 5000 + r.val) :
    ((cfg0.win 1).blk t).view.read (Elt Ideal) A (ix2 r k) = A (ix2 r' k) := by
  obtain ⟨e0, e1⟩ := (idx_facts t).w1
  show A (((cfg0.win 1).blk t).view.emb (ix2 r k)) = A (ix2 r' k)
  refine congrArg A (funext fun a => Fin.ext ?_)
  match a with
  | ⟨0, _⟩ => show win0_1.index t (0 : Fin 2) * 5000 + 1 * r.val = r'.val; rw [e0, hr]; omega
  | ⟨1, _⟩ => show win0_1.index t (1 : Fin 2) * 128 + 1 * k.val = k.val; rw [e1]; omega

/-- Each weight array is staged whole at every point. -/
theorem whole_wrel (W : Mat 128) (t : Fin cfg0.N) : ((cfg0.win 2).blk t).view.read (Elt Ideal) W = W := by
  obtain ⟨e0, e1⟩ := (idx_facts t).w2
  funext y
  show W (((cfg0.win 2).blk t).view.emb y) = W y
  refine congrArg W (funext fun a => Fin.ext ?_)
  match a with
  | ⟨0, _⟩ => show win0_2.index t (0 : Fin 2) * 128 + 1 * (y 0).val = (y 0).val; rw [e0]; omega
  | ⟨1, _⟩ => show win0_2.index t (1 : Fin 2) * 128 + 1 * (y 1).val = (y 1).val; rw [e1]; omega
theorem whole_brel (B : Row) (t : Fin cfg0.N) : ((cfg0.win 3).blk t).view.read (Elt Ideal) B = B := by
  have e0 := (idx_facts t).w3
  funext y
  show B (((cfg0.win 3).blk t).view.emb y) = B y
  refine congrArg B (funext fun a => Fin.ext ?_)
  match a with
  | ⟨0, _⟩ => show win0_3.index t (0 : Fin 1) * 128 + 1 * (y 0).val = (y 0).val; rw [e0]; omega
theorem whole_wroot (W : Mat 128) (t : Fin cfg0.N) : ((cfg0.win 4).blk t).view.read (Elt Ideal) W = W := by
  obtain ⟨e0, e1⟩ := (idx_facts t).w4
  funext y
  show W (((cfg0.win 4).blk t).view.emb y) = W y
  refine congrArg W (funext fun a => Fin.ext ?_)
  match a with
  | ⟨0, _⟩ => show win0_4.index t (0 : Fin 2) * 128 + 1 * (y 0).val = (y 0).val; rw [e0]; omega
  | ⟨1, _⟩ => show win0_4.index t (1 : Fin 2) * 128 + 1 * (y 1).val = (y 1).val; rw [e1]; omega
theorem whole_wmu (W : Mat 128) (t : Fin cfg0.N) : ((cfg0.win 5).blk t).view.read (Elt Ideal) W = W := by
  obtain ⟨e0, e1⟩ := (idx_facts t).w5
  funext y
  show W (((cfg0.win 5).blk t).view.emb y) = W y
  refine congrArg W (funext fun a => Fin.ext ?_)
  match a with
  | ⟨0, _⟩ => show win0_5.index t (0 : Fin 2) * 128 + 1 * (y 0).val = (y 0).val; rw [e0]; omega
  | ⟨1, _⟩ => show win0_5.index t (1 : Fin 2) * 128 + 1 * (y 1).val = (y 1).val; rw [e1]; omega
theorem whole_bmu (B : Row) (t : Fin cfg0.N) : ((cfg0.win 6).blk t).view.read (Elt Ideal) B = B := by
  have e0 := (idx_facts t).w6
  funext y
  show B (((cfg0.win 6).blk t).view.emb y) = B y
  refine congrArg B (funext fun a => Fin.ext ?_)
  match a with
  | ⟨0, _⟩ => show win0_6.index t (0 : Fin 1) * 128 + 1 * (y 0).val = (y 0).val; rw [e0]; omega
theorem whole_wstd (W : Mat 128) (t : Fin cfg0.N) : ((cfg0.win 7).blk t).view.read (Elt Ideal) W = W := by
  obtain ⟨e0, e1⟩ := (idx_facts t).w7
  funext y
  show W (((cfg0.win 7).blk t).view.emb y) = W y
  refine congrArg W (funext fun a => Fin.ext ?_)
  match a with
  | ⟨0, _⟩ => show win0_7.index t (0 : Fin 2) * 128 + 1 * (y 0).val = (y 0).val; rw [e0]; omega
  | ⟨1, _⟩ => show win0_7.index t (1 : Fin 2) * 128 + 1 * (y 1).val = (y 1).val; rw [e1]; omega
theorem whole_bstd (B : Row) (t : Fin cfg0.N) : ((cfg0.win 8).blk t).view.read (Elt Ideal) B = B := by
  have e0 := (idx_facts t).w8
  funext y
  show B (((cfg0.win 8).blk t).view.emb y) = B y
  refine congrArg B (funext fun a => Fin.ext ?_)
  match a with
  | ⟨0, _⟩ => show win0_8.index t (0 : Fin 1) * 128 + 1 * (y 0).val = (y 0).val; rw [e0]; omega

/-! ## What a point computes, over variables of the literal types -/

/-- If a block's rows are rows of the whole arrays, its mean-head payload at a row is the whole arrays' head at that row. -/
theorem mu_point (agg x : Mat 50000) (wrel : Mat 128) (brel : Row) (wroot w : Mat 128) (b : Row)
    (a0 a1 : Vec Ideal S5000x128 .f32) (r : Fin 5000) (q : Fin 128) (r' : Fin 50000)
    (h0 : ∀ k : Fin 128, a0 (ix2 r k) = agg (ix2 r' k)) (h1 : ∀ k : Fin 128, a1 (ix2 r k) = x (ix2 r' k)) :
    k0_pay2 (F := Ideal) a0 a1 wrel wroot brel w b (ix2 r q) = head agg x wrel brel wroot w b (ix2 r' q) := by
  rw [pay2_apply, head_ix2]
  exact headAt_congr a0 a1 agg x wrel brel wroot w b r r' h0 h1 q

/-- The same for the log-deviation head. -/
theorem logstd_point (agg x : Mat 50000) (wrel : Mat 128) (brel : Row) (wroot w : Mat 128) (b : Row)
    (a0 a1 : Vec Ideal S5000x128 .f32) (r : Fin 5000) (q : Fin 128) (r' : Fin 50000)
    (h0 : ∀ k : Fin 128, a0 (ix2 r k) = agg (ix2 r' k)) (h1 : ∀ k : Fin 128, a1 (ix2 r k) = x (ix2 r' k)) :
    k0_pay3 (F := Ideal) a0 a1 wrel wroot brel w b (ix2 r q) = head agg x wrel brel wroot w b (ix2 r' q) := by
  rw [pay3_apply, head_ix2]
  exact headAt_congr a0 a1 agg x wrel brel wroot w b r r' h0 h1 q

/-! ## What each point writes back, for any contents of the nine input arrays -/

/-- The body's mean-head block at point `t`, of the nine input blocks read off arrays `A, X, W2, …`, is block `t` of the mean head of those arrays. -/
theorem mu_block (A X : Mat 50000) (W2 : Mat 128) (B3 : Row) (W4 W5 : Mat 128) (B6 : Row) (W7 : Mat 128) (B8 : Row) (t : Fin cfg0.N) :
    (cfg0.win 9).cut (grid0.coords t) (out0_9 (F := Ideal) (((cfg0.win 0).blk t).view.read (Elt Ideal) A) (((cfg0.win 1).blk t).view.read (Elt Ideal) X)
        (((cfg0.win 2).blk t).view.read (Elt Ideal) W2) (((cfg0.win 3).blk t).view.read (Elt Ideal) B3) (((cfg0.win 4).blk t).view.read (Elt Ideal) W4)
        (((cfg0.win 5).blk t).view.read (Elt Ideal) W5) (((cfg0.win 6).blk t).view.read (Elt Ideal) B6) (((cfg0.win 7).blk t).view.read (Elt Ideal) W7)
        (((cfg0.win 8).blk t).view.read (Elt Ideal) B8))
      = ((cfg0.win 9).blk t).view.read (Elt Ideal) (head A X W2 B3 W4 W5 B6) := by
  rw [whole_wrel, whole_brel, whole_wroot, whole_wmu, whole_bmu, whole_wstd, whole_bstd]
  unfold out0_9
  rw [View.canon_unit_zero zero2]
  simp only [View.ld_unit_zero (S := S5000x128) zero2, View.ld_unit_zero (S := S128x128) zero2, View.ld_unit_zero (S := S128) zero1]
  obtain ⟨e0, e1⟩ := (idx_facts t).w9
  have ht := point_lt t
  funext j
  have hj0 : (j 0).val < 5000 := (j 0).isLt
  have hj1 : (j 1).val < 128 := (j 1).isLt
  have hy : (cfg0.win 9).xinj (grid0.coords t) j = ix2 (⟨(j 0).val, hj0⟩ : Fin 5000) (⟨(j 1).val, hj1⟩ : Fin 128) :=
    funext fun a => Fin.ext (by match a with | ⟨0, _⟩ => rfl | ⟨1, _⟩ => rfl)
  have hi : ((cfg0.win 9).blk t).view.emb j = ix2 (⟨t.val * 5000 + (j 0).val, by omega⟩ : Fin 50000) (⟨(j 1).val, hj1⟩ : Fin 128) :=
    funext fun a => Fin.ext (by
      match a with
      | ⟨0, _⟩ => show win0_9.index t (0 : Fin 2) * 5000 + 1 * (j 0).val = t.val * 5000 + (j 0).val; rw [e0]; omega
      | ⟨1, _⟩ => show win0_9.index t (1 : Fin 2) * 128 + 1 * (j 1).val = (j 1).val; rw [e1]; omega)
  show k0_pay2 (F := Ideal) (((cfg0.win 0).blk t).view.read (Elt Ideal) A) (((cfg0.win 1).blk t).view.read (Elt Ideal) X) W2 W4 B3 W5 B6
      ((cfg0.win 9).xinj (grid0.coords t) j)
    = head A X W2 B3 W4 W5 B6 (((cfg0.win 9).blk t).view.emb j)
  rw [hy, hi]
  exact mu_point A X W2 B3 W4 W5 B6 (((cfg0.win 0).blk t).view.read (Elt Ideal) A) (((cfg0.win 1).blk t).view.read (Elt Ideal) X)
    ⟨(j 0).val, hj0⟩ ⟨(j 1).val, hj1⟩ ⟨t.val * 5000 + (j 0).val, by omega⟩
    (fun k => rows_agg A t ⟨(j 0).val, hj0⟩ k ⟨t.val * 5000 + (j 0).val, by omega⟩ rfl)
    (fun k => rows_x X t ⟨(j 0).val, hj0⟩ k ⟨t.val * 5000 + (j 0).val, by omega⟩ rfl)

/-- The same for the log-deviation head. -/
theorem logstd_block (A X : Mat 50000) (W2 : Mat 128) (B3 : Row) (W4 W5 : Mat 128) (B6 : Row) (W7 : Mat 128) (B8 : Row) (t : Fin cfg0.N) :
    (cfg0.win 10).cut (grid0.coords t) (out0_10 (F := Ideal) (((cfg0.win 0).blk t).view.read (Elt Ideal) A) (((cfg0.win 1).blk t).view.read (Elt Ideal) X)
        (((cfg0.win 2).blk t).view.read (Elt Ideal) W2) (((cfg0.win 3).blk t).view.read (Elt Ideal) B3) (((cfg0.win 4).blk t).view.read (Elt Ideal) W4)
        (((cfg0.win 5).blk t).view.read (Elt Ideal) W5) (((cfg0.win 6).blk t).view.read (Elt Ideal) B6) (((cfg0.win 7).blk t).view.read (Elt Ideal) W7)
        (((cfg0.win 8).blk t).view.read (Elt Ideal) B8))
      = ((cfg0.win 10).blk t).view.read (Elt Ideal) (head A X W2 B3 W4 W7 B8) := by
  rw [whole_wrel, whole_brel, whole_wroot, whole_wmu, whole_bmu, whole_wstd, whole_bstd]
  unfold out0_10
  rw [View.canon_unit_zero zero2]
  simp only [View.ld_unit_zero (S := S5000x128) zero2, View.ld_unit_zero (S := S128x128) zero2, View.ld_unit_zero (S := S128) zero1]
  obtain ⟨e0, e1⟩ := (idx_facts t).w10
  have ht := point_lt t
  funext j
  have hj0 : (j 0).val < 5000 := (j 0).isLt
  have hj1 : (j 1).val < 128 := (j 1).isLt
  have hy : (cfg0.win 10).xinj (grid0.coords t) j = ix2 (⟨(j 0).val, hj0⟩ : Fin 5000) (⟨(j 1).val, hj1⟩ : Fin 128) :=
    funext fun a => Fin.ext (by match a with | ⟨0, _⟩ => rfl | ⟨1, _⟩ => rfl)
  have hi : ((cfg0.win 10).blk t).view.emb j = ix2 (⟨t.val * 5000 + (j 0).val, by omega⟩ : Fin 50000) (⟨(j 1).val, hj1⟩ : Fin 128) :=
    funext fun a => Fin.ext (by
      match a with
      | ⟨0, _⟩ => show win0_10.index t (0 : Fin 2) * 5000 + 1 * (j 0).val = t.val * 5000 + (j 0).val; rw [e0]; omega
      | ⟨1, _⟩ => show win0_10.index t (1 : Fin 2) * 128 + 1 * (j 1).val = (j 1).val; rw [e1]; omega)
  show k0_pay3 (F := Ideal) (((cfg0.win 0).blk t).view.read (Elt Ideal) A) (((cfg0.win 1).blk t).view.read (Elt Ideal) X) W2 W4 B3 W7 B8
      ((cfg0.win 10).xinj (grid0.coords t) j)
    = head A X W2 B3 W4 W7 B8 (((cfg0.win 10).blk t).view.emb j)
  rw [hy, hi]
  exact logstd_point A X W2 B3 W4 W7 B8 (((cfg0.win 0).blk t).view.read (Elt Ideal) A) (((cfg0.win 1).blk t).view.read (Elt Ideal) X)
    ⟨(j 0).val, hj0⟩ ⟨(j 1).val, hj1⟩ ⟨t.val * 5000 + (j 0).val, by omega⟩
    (fun k => rows_agg A t ⟨(j 0).val, hj0⟩ k ⟨t.val * 5000 + (j 0).val, by omega⟩ rfl)
    (fun k => rows_x X t ⟨(j 0).val, hj0⟩ k ⟨t.val * 5000 + (j 0).val, by omega⟩ rfl)

/-! ## The ten blocks tile the rows -/

theorem mem_blk9 (t : Fin cfg0.N) (i : S50000x128.Idx) :
    i ∈ ((cfg0.win 9).blk t).view.set ↔ ∀ a : Fin 2, win0_9.index t a * S5000x128.size a ≤ (i a).val ∧ (i a).val < win0_9.index t a * S5000x128.size a + S5000x128.size a := by
  show i ∈ ((View.whole main_v17_0).slice (win0_9.rect t)).set ↔ _
  rw [View.set_slice_whole, Rect.mem_set_unit]
  exact Iff.rfl

/-- Row `i` lies in the block of point `i / 5000`. -/
theorem cover9 (i : S50000x128.Idx) : ∃ t : Fin cfg0.N, (cfg0.win 9).flush t = true ∧ i ∈ ((cfg0.win 9).blk t).view.set := by
  have hi0 : (i 0).val < 50000 := (i 0).isLt
  have hi1 : (i 1).val < 128 := (i 1).isLt
  obtain ⟨t, htv⟩ : ∃ t : Fin cfg0.N, t.val = (i 0).val / 5000 :=
    ⟨⟨(i 0).val / 5000, by rw [show cfg0.N = 10 from N_0]; omega⟩, rfl⟩
  obtain ⟨e0, e1⟩ := (idx_facts t).w9
  refine ⟨t, flush0_9 t, ?_⟩
  rw [mem_blk9]
  intro a
  match a with
  | ⟨0, _⟩ => show win0_9.index t (0 : Fin 2) * 5000 ≤ (i 0).val ∧ (i 0).val < win0_9.index t (0 : Fin 2) * 5000 + 5000; rw [e0, htv]; omega
  | ⟨1, _⟩ => show win0_9.index t (1 : Fin 2) * 128 ≤ (i 1).val ∧ (i 1).val < win0_9.index t (1 : Fin 2) * 128 + 128; rw [e1]; omega

theorem mem_blk10 (t : Fin cfg0.N) (i : S50000x128.Idx) :
    i ∈ ((cfg0.win 10).blk t).view.set ↔ ∀ a : Fin 2, win0_10.index t a * S5000x128.size a ≤ (i a).val ∧ (i a).val < win0_10.index t a * S5000x128.size a + S5000x128.size a := by
  show i ∈ ((View.whole main_v17_1).slice (win0_10.rect t)).set ↔ _
  rw [View.set_slice_whole, Rect.mem_set_unit]
  exact Iff.rfl

/-- Row `i` lies in the block of point `i / 5000`. -/
theorem cover10 (i : S50000x128.Idx) : ∃ t : Fin cfg0.N, (cfg0.win 10).flush t = true ∧ i ∈ ((cfg0.win 10).blk t).view.set := by
  have hi0 : (i 0).val < 50000 := (i 0).isLt
  have hi1 : (i 1).val < 128 := (i 1).isLt
  obtain ⟨t, htv⟩ : ∃ t : Fin cfg0.N, t.val = (i 0).val / 5000 :=
    ⟨⟨(i 0).val / 5000, by rw [show cfg0.N = 10 from N_0]; omega⟩, rfl⟩
  obtain ⟨e0, e1⟩ := (idx_facts t).w10
  refine ⟨t, flush0_10 t, ?_⟩
  rw [mem_blk10]
  intro a
  match a with
  | ⟨0, _⟩ => show win0_10.index t (0 : Fin 2) * 5000 ≤ (i 0).val ∧ (i 0).val < win0_10.index t (0 : Fin 2) * 5000 + 5000; rw [e0, htv]; omega
  | ⟨1, _⟩ => show win0_10.index t (1 : Fin 2) * 128 ≤ (i 1).val ∧ (i 1).val < win0_10.index t (1 : Fin 2) * 128 + 128; rw [e1]; omega

end Cert.KernelIdeal.HeadBlocks

end
-- ==== Proof.HeadAgg.lean ====
/-
  The aggregated messages are one function of the inputs in both programs.

  Before its one kernel region the kernel's program gathers the source rows of `x`, scales them by the edge
  weights and scatter-adds them into the destination rows — operation for operation what the reference does first.
  So the array the region finds in the aggregated buffer is the reference's scatter-add stage of the same three
  inputs; the stage is carried whole and never opened.
-/
import proofs.«179351_j67774583931485_1_alg».proof.Proof.Gen.KernelIdeal.Frame
import proofs.«179351_j67774583931485_1_alg».proof.Proof.Gen.ReferenceIdeal.Read
import Idealize.ShloMosaic.Lib.StableHlo.Run

noncomputable section

namespace Cert.KernelIdeal.HeadAgg

open Cert.KernelIdeal Cert.KernelIdeal.Gen Idealize.ShloMosaic Idealize.ShloMosaic.TcCoe Idealize.SL.Sem

variable (m : (ℓ : Loc nD τ sig) → Buf (Elt Ideal) ℓ)

/-- What the region finds in the aggregated buffer: the host operations' term of `x`, the edge list and the edge weights. -/
theorem agg_host (c : Dev nD) :
    (V m c main_v16 : S50000x128.Idx → EReal)
      = Cert.ReferenceIdeal.Read.val_main_v16 (F := Ideal) (m ((c : Thread nD τ).loc main_arg0))
          (m ((c : Thread nD τ).loc main_arg1)) (m ((c : Thread nD τ).loc main_arg2)) := by
  dsimp only [Gen.V, Gen.hostOps0]
  after_results_simp
  rfl

end Cert.KernelIdeal.HeadAgg

end
-- ==== Proof.HeadRun.lean ====
/-
  The kernel's run, read: both result arrays as the specification's heads of the INPUTS.

  Each result array is the head of the nine arrays the region finds (the ten row blocks tile it); the eight
  weight and feature arrays are found as launched, and the aggregated array is the scatter-add stage of the
  inputs (carried whole). So the mean array is `head agg x W_rel b_rel W_root W_mu b_mu` and the log-deviation array
  `head agg x W_rel b_rel W_root W_std b_std`, with `agg` that stage of `x`, the edge list and the edge weights.
-/
import proofs.«179351_j67774583931485_1_alg».proof.Proof.Gen.KernelIdeal.Value
import proofs.«179351_j67774583931485_1_alg».proof.Proof.HeadBlocks
import proofs.«179351_j67774583931485_1_alg».proof.Proof.HeadAgg

noncomputable section

namespace Cert.KernelIdeal.HeadRun

open Cert.KernelIdeal Cert.KernelIdeal.Gen Idealize.ShloMosaic Idealize.ShloMosaic.TcCoe Idealize.SL.Sem
open Idealize.ShloMosaic.ValueIdx Cert.HeadSpec Cert.KernelIdeal.HeadBlocks
open Idealize.ShloMosaic.Pipeline (Dat)

variable (m : (ℓ : Loc nD τ sig) → Buf (Elt Ideal) ℓ) (ρ : Dev nD → PrngReg)

/-- The mean head of the arrays as the region finds them. -/
def muA (c : Dev nD) : Mat 50000 :=
  head (V m c main_v16) (V m c main_arg0) (V m c main_arg3) (V m c main_arg4) (V m c main_arg5) (V m c main_arg6) (V m c main_arg7)
/-- The log-deviation head of the arrays as the region finds them. -/
def logstdA (c : Dev nD) : Mat 50000 :=
  head (V m c main_v16) (V m c main_arg0) (V m c main_arg3) (V m c main_arg4) (V m c main_arg5) (V m c main_arg8) (V m c main_arg9)

/-- Point `t` writes back block `t` of the mean head. -/
theorem flushed_mu (c : Dev nD) (t : Fin cfg0.N) :
    (dats m 0 c).flushed 9 t = ((cfg0.win 9).blk t).view.read (Elt Ideal) (muA m c) := by
  rw [Cert.KernelIdeal.Value.flushed9]
  unfold iblk muA
  exact mu_block (V m c main_v16) (V m c main_arg0) (V m c main_arg3) (V m c main_arg4) (V m c main_arg5)
    (V m c main_arg6) (V m c main_arg7) (V m c main_arg8) (V m c main_arg9) t

/-- Point `t` writes back block `t` of the log-deviation head. -/
theorem flushed_logstd (c : Dev nD) (t : Fin cfg0.N) :
    (dats m 0 c).flushed 10 t = ((cfg0.win 10).blk t).view.read (Elt Ideal) (logstdA m c) := by
  rw [Cert.KernelIdeal.Value.flushed10]
  unfold iblk logstdA
  exact logstd_block (V m c main_v16) (V m c main_arg0) (V m c main_arg3) (V m c main_arg4) (V m c main_arg5)
    (V m c main_arg6) (V m c main_arg7) (V m c main_arg8) (V m c main_arg9) t

/-- The mean array after the run. -/
theorem final_mu (c : Dev nD) : (dats m 0 c).arrAt 9 cfg0.N = muA m c :=
  (dats m 0 c).arrAt_eq_of_cover 9 (muA m c) (fun t _ => flushed_mu m c t) cover9

/-- The log-deviation array after the run. -/
theorem final_logstd (c : Dev nD) : (dats m 0 c).arrAt 10 cfg0.N = logstdA m c :=
  (dats m 0 c).arrAt_eq_of_cover 10 (logstdA m c) (fun t _ => flushed_logstd m c t) cover10

/-- The mean head, of the inputs. -/
theorem muA_eq (c : Dev nD) :
    muA m c = head (Cert.ReferenceIdeal.Read.val_main_v16 (F := Ideal) (m ((c : Thread nD τ).loc main_arg0)) (m ((c : Thread nD τ).loc main_arg1)) (m ((c : Thread nD τ).loc main_arg2)))
      (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) := by
  unfold muA
  rw [Cert.KernelIdeal.HeadAgg.agg_host m c, V_main_arg0 m c, V_main_arg3 m c, V_main_arg4 m c, V_main_arg5 m c, V_main_arg6 m c, V_main_arg7 m c]

/-- The log-deviation head, of the inputs. -/
theorem logstdA_eq (c : Dev nD) :
    logstdA m c = head (Cert.ReferenceIdeal.Read.val_main_v16 (F := Ideal) (m ((c : Thread nD τ).loc main_arg0)) (m ((c : Thread nD τ).loc main_arg1)) (m ((c : Thread nD τ).loc main_arg2)))
      (m ((c : Thread nD τ).loc main_arg0)) (m ((c : Thread nD τ).loc main_arg3)) (m ((c : Thread nD τ).loc main_arg4)) (m ((c : Thread nD τ).loc main_arg5)) (m ((c : Thread nD τ).loc main_arg8)) (m ((c : Thread nD τ).loc main_arg9)) := by
  unfold logstdA
  rw [Cert.KernelIdeal.HeadAgg.agg_host m c, V_main_arg0 m c, V_main_arg3 m c, V_main_arg4 m c, V_main_arg5 m c, V_main_arg8 m c, V_main_arg9 m c]

/-- The run: each result array at its head of the arrays the region found, the arguments unchanged. -/
theorem run : θ_run defs (onTc (τ := τ) (main (F := Ideal))) ⟨m, fun _ => 0, ρ⟩ fun r => ∀ c : Dev nD,
      r.2.mem ((c : Thread nD τ).loc main_v17_0) = muA m c
      ∧ r.2.mem ((c : Thread nD τ).loc main_v17_1) = logstdA m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final_mu m c), (h c).2.1.trans (final_logstd m c), (h c).2.2⟩)
    (Cert.KernelIdeal.Value.run_blocks m ρ)

end Cert.KernelIdeal.HeadRun

end
-- ==== Proof.lean ====
/-
  A variational graph encoder's head, computed by a kernel tiled over node rows, against its whole-array reference,
  over the extended reals.

  Both programs first build the aggregated messages `agg` — the source rows of `x` gathered, scaled by the edge weights
  and scatter-added into the destination rows — with the same host operations, and then compute, row by row,

      hidden = max (agg · W_rel + b_rel + x · W_root) 0,     mu = max (hidden · W_mu + b_mu) 0,
                                                             log_std = max (hidden · W_std + b_std) 0.

  The kernel does the second part in ten row blocks of 5000, casting to bf16 before each product: over the extended
  reals a format change is the identity and a product into a zero accumulator is the plain sum, so each block is the
  matching rows of the same function (`Cert.HeadSpec.head`) of the whole arrays, with the sums grouped exactly as the
  reference groups them. No law of arithmetic beyond that is used, and the precondition is never opened.

  Modules: HeadSpec (the function), HeadBody (the kernel body's stored values at an index), HeadReference (the
  reference's stages are the function), HeadBlocks (row blocks to whole arrays), HeadAgg (the aggregated array is the
  reference's scatter-add stage), HeadRun (the kernel's run, read). Here: the five claims.
-/
import proofs.«179351_j67774583931485_1_alg».proof.Defs
import proofs.«179351_j67774583931485_1_alg».proof.Proof.Gen.Kernel
import proofs.«179351_j67774583931485_1_alg».proof.Proof.Gen.Kernel.Skeleton
import proofs.«179351_j67774583931485_1_alg».proof.Proof.Gen.Kernel.Launch
import proofs.«179351_j67774583931485_1_alg».proof.Proof.Gen.Kernel.Points
import proofs.«179351_j67774583931485_1_alg».proof.Proof.Gen.Kernel.Frame
import proofs.«179351_j67774583931485_1_alg».proof.Proof.Gen.KernelIdeal
import proofs.«179351_j67774583931485_1_alg».proof.Proof.Gen.KernelIdeal.Skeleton
import proofs.«179351_j67774583931485_1_alg».proof.Proof.Gen.KernelIdeal.Launch
import proofs.«179351_j67774583931485_1_alg».proof.Proof.Gen.KernelIdeal.Points
import proofs.«179351_j67774583931485_1_alg».proof.Proof.Gen.KernelIdeal.Frame
import proofs.«179351_j67774583931485_1_alg».proof.Proof.Gen.ReferenceIdeal
import proofs.«179351_j67774583931485_1_alg».proof.Proof.Gen.Pre_finite_inputs
import proofs.«179351_j67774583931485_1_alg».proof.Proof.Gen.KernelIdeal.Value
import proofs.«179351_j67774583931485_1_alg».proof.Proof.Gen.ReferenceIdeal.Run
import proofs.«179351_j67774583931485_1_alg».proof.Proof.Gen.ReferenceIdeal.Read
import proofs.«179351_j67774583931485_1_alg».proof.Proof.HeadReference
import proofs.«179351_j67774583931485_1_alg».proof.Proof.HeadRun
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference has no kernel: its frame is its run with the results dropped. -/
theorem frame_reference_ideal : Cert.frame_ReferenceIdeal := fun m ρ _ =>
  (θ_run Cert.ReferenceIdeal.defs _ _).mono (fun _ h c => (h c).2.2) (Cert.ReferenceIdeal.Value.run (F := Ideal) m ρ)

/-- Both programs end with the two heads of the inputs: the kernel's arrays by its run read block by block, the
    reference's by its stages read one at a time; the inputs agree. -/
theorem algebraic : Cert.algebraic_KernelIdeal_ReferenceIdeal := by
  intro m ρ m' ρ' _ hagree
  refine ⟨fun c => Cert.KernelIdeal.HeadRun.muA m c, fun c => Cert.KernelIdeal.HeadRun.logstdA m c,
    Cert.KernelIdeal.HeadRun.run m ρ, ?_⟩
  refine (θ_run Cert.ReferenceIdeal.defs _ _).mono (fun _ h c => ?_) (Cert.ReferenceIdeal.Value.run (F := Ideal) m' ρ')
  obtain ⟨a0, a1, a2, a3, a4, a5, a6, a7, a8, a9⟩ := hagree c
  refine ⟨(h c).1.trans ?_, (h c).2.1.trans ?_, (h c).2.2⟩
  · rw [Cert.ReferenceIdeal.Read.val_main_v28_eq, Cert.ReferenceIdeal.HeadValue.mu_ref, a0, a1, a2, a3, a4, a5, a6, a7]
    exact (Cert.KernelIdeal.HeadRun.muA_eq m c).symm
  · rw [Cert.ReferenceIdeal.Read.val_main_v33_eq, Cert.ReferenceIdeal.HeadValue.logstd_ref, a0, a1, a2, a3, a4, a5, a8, a9]
    exact (Cert.KernelIdeal.HeadRun.logstdA_eq m c).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
